-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S1 : Shape := ⟨1, ![1]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S8192x8192 .f32) (main_arg1 : FVec F S1 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S8192x8192 : Shape := ⟨2, ![8192, 8192]⟩
abbrev S1 : Shape := ⟨1, ![1]⟩
abbrev S4x2048 : Shape := ⟨2, ![4, 2048]⟩
abbrev S256x8192 : Shape := ⟨2, ![256, 8192]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1x2048 : Shape := ⟨2, ![1, 2048]⟩
abbrev S_ : Shape := ⟨0, ![]⟩
abbrev S2048x4 : Shape := ⟨2, ![2048, 4]⟩
abbrev S4x4 : Shape := ⟨2, ![4, 4]⟩

abbrev nBuf : Space → Nat
  | .hbm => 30
  | .vmem => 3
  | .smem => 0
  | _ => 0

abbrev bufTy : (tb : Table) → Fin (tcTables nBuf tb) → BufTy
  | .hbm, ⟨0, _⟩ => ⟨S8192x8192, .f32⟩
  | .hbm, ⟨1, _⟩ => ⟨S1, .f32⟩
  | .hbm, ⟨2, _⟩ => ⟨S4x2048, .f32⟩
  | .hbm, ⟨3, _⟩ => ⟨S_, .f32⟩
  | .hbm, ⟨4, _⟩ => ⟨S4x2048, .f32⟩
  | .hbm, ⟨5, _⟩ => ⟨S4x2048, .f32⟩
  | .hbm, ⟨6, _⟩ => ⟨S2048x4, .f32⟩
  | .hbm, ⟨7, _⟩ => ⟨S4x4, .f32⟩
  | .hbm, ⟨8, _⟩ => ⟨S_, .f32⟩
  | .hbm, ⟨9, _⟩ => ⟨S_, .f32⟩
  | .hbm, ⟨10, _⟩ => ⟨S4x4, .i32⟩
  | .hbm, ⟨11, _⟩ => ⟨S4x4, .i32⟩
  | .hbm, ⟨12, _⟩ => ⟨S_, .i32⟩
  | .hbm, ⟨13, _⟩ => ⟨S4x4, .i32⟩
  | .hbm, ⟨14, _⟩ => ⟨S4x4, .i32⟩
  | .hbm, ⟨15, _⟩ => ⟨S4x4, .i1⟩
  | .hbm, ⟨16, _⟩ => ⟨S_, .f32⟩
  | .hbm, ⟨17, _⟩ => ⟨S4x4, .f32⟩
  | .hbm, ⟨18, _⟩ => ⟨S4x4, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S1, .f32⟩
  | .local _ .vmem, ⟨0, _⟩ => ⟨S256x8192, .f32⟩
  | .local _ .vmem, ⟨1, _⟩ => ⟨S256x8192, .f32⟩
  | .local _ .vmem, ⟨2, _⟩ => ⟨S4x2048, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_c : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_cst : Ref sig .tc := ⟨.hbm, 16, rfl⟩
abbrev main_call0_v5 : Ref sig .tc := ⟨.hbm, 17, rfl⟩
abbrev main_call0_v6 : Ref sig .tc := ⟨.hbm, 18, rfl⟩
abbrev main_call0_cst_0 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S4x2048_S4x2048_0_0 : ∀ a, (![0, 0] : Fin 2 → Nat) a + S4x2048.size a ≤ S4x2048.size a
  h_S4x2048 : 0 < S4x2048.numel
  inb_S256x8192_S256x8192_0_0 : ∀ a, (![0, 0] : Fin 2 → Nat) a + S256x8192.size a ≤ S256x8192.size a
  h_S256x8192 : 0 < S256x8192.numel
  slices_S256x8192_o0_0_S256x2048 : S256x8192.Slices ![0, 0] S256x2048
  reduces_S256x2048_S256 : S256x2048.Reduces [1] S256
  shapeCasts_S256_S256x1 : S256.ShapeCasts S256x1
  broadcasts_S256x1_S256x2048 : S256x1.Broadcasts S256x2048
  reduces_S256x2048_S2048 : S256x2048.Reduces [0] S2048
  shapeCasts_S2048_S1x2048 : S2048.ShapeCasts S1x2048
  slices_S256x8192_o0_2048_S256x2048 : S256x8192.Slices ![0, 2048] S256x2048
  slices_S256x8192_o0_4096_S256x2048 : S256x8192.Slices ![0, 4096] S256x2048
  slices_S256x8192_o0_6144_S256x2048 : S256x8192.Slices ![0, 6144] S256x2048
  concatenates_S1x2048_S1x2048_S1x2048_S1x2048_S4x2048_d0 : Shape.Concatenates [S1x2048, S1x2048, S1x2048, S1x2048] S4x2048 0
  shapeCasts_S4x2048_S4x2048 : S4x2048.ShapeCasts S4x2048
  bcast_S_S4x2048 : S_.BroadcastsInDim S4x2048 (![] : Fin 0 → Fin S4x2048.rank)
  transposes_S4x2048_S2048x4_1_0 : S4x2048.Transposes [1, 0] S2048x4
  reducesTo_S4x4_S_d0_1 : S4x4.ReducesTo [0, 1] S_
  h_S_ : 0 < S_.numel
  bcast_S_S4x4 : S_.BroadcastsInDim S4x4 (![] : Fin 0 → Fin S4x4.rank)
  bcast_S_S1 : S_.BroadcastsInDim S1 (![] : Fin 0 → Fin S1.rank)
  dot_S4x2048_S2048x4_S4x4_1_0_0_1_n_n_wf : DotDims.WF S4x2048 S2048x4 S4x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2048.size a ≤ S4x2048.size a
  hwx0_1 : ∀ i : grid0.Coords, EltTy.bits .f32 = 32 ∨ (Rect.block (s := S4x2048) S4x2048.size (cc0_transform_1 i) (hinb0_1 i)).WholeWords (EltTy.packing .f32)

variable [Facts₀]

def dot_S4x2048_S2048x4_S4x4_1_0_0_1_n_n : DotDims S4x2048 S2048x4 S4x4 where
  lhsContracting := [1]
  rhsContracting := [0]
  lhsNonContracting := [0]
  rhsNonContracting := [1]
  lhsBatch := []
  rhsBatch := []
  wf := dot_S4x2048_S2048x4_S4x4_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x2048.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S1 : Shape := ⟨1, ![1]⟩
abbrev S8192x4x2048 : Shape := ⟨3, ![8192, 4, 2048]⟩
abbrev S_ : Shape := ⟨0, ![]⟩
abbrev S8192x4 : Shape := ⟨2, ![8192, 4]⟩
abbrev S8192x4x1 : Shape := ⟨3, ![8192, 4, 1]⟩
abbrev S4x2048 : Shape := ⟨2, ![4, 2048]⟩
abbrev S2048x4 : Shape := ⟨2, ![2048, 4]⟩
abbrev S4x4 : Shape := ⟨2, ![4, 4]⟩

abbrev nBuf : Space → Nat
  | .hbm => 39
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S1, .f32⟩
  | .hbm, ⟨2, _⟩ => ⟨S8192x4x2048, .f32⟩
  | .hbm, ⟨3, _⟩ => ⟨S8192x4x2048, .f32⟩
  | .hbm, ⟨4, _⟩ => ⟨S_, .f32⟩
  | .hbm, ⟨5, _⟩ => ⟨S8192x4, .f32⟩
  | .hbm, ⟨6, _⟩ => ⟨S8192x4x1, .f32⟩
  | .hbm, ⟨7, _⟩ => ⟨S8192x4x1, .f32⟩
  | .hbm, ⟨8, _⟩ => ⟨S8192x4x2048, .f32⟩
  | .hbm, ⟨9, _⟩ => ⟨S8192x4x2048, .f32⟩
  | .hbm, ⟨10, _⟩ => ⟨S_, .f32⟩
  | .hbm, ⟨11, _⟩ => ⟨S4x2048, .f32⟩
  | .hbm, ⟨12, _⟩ => ⟨S_, .f32⟩
  | .hbm, ⟨13, _⟩ => ⟨S4x2048, .f32⟩
  | .hbm, ⟨14, _⟩ => ⟨S4x2048, .f32⟩
  | .hbm, ⟨15, _⟩ => ⟨S2048x4, .f32⟩
  | .hbm, ⟨16, _⟩ => ⟨S4x4, .f32⟩
  | .hbm, ⟨17, _⟩ => ⟨S_, .f32⟩
  | .hbm, ⟨18, _⟩ => ⟨S_, .f32⟩
  | .hbm, ⟨19, _⟩ => ⟨S4x4, .i32⟩
  | .hbm, ⟨20, _⟩ => ⟨S4x4, .i32⟩
  | .hbm, ⟨21, _⟩ => ⟨S_, .i32⟩
  | .hbm, ⟨22, _⟩ => ⟨S4x4, .i32⟩
  | .hbm, ⟨23, _⟩ => ⟨S4x4, .i32⟩
  | .hbm, ⟨24, _⟩ => ⟨S4x4, .i1⟩
  | .hbm, ⟨25, _⟩ => ⟨S_, .f32⟩
  | .hbm, ⟨26, _⟩ => ⟨S4x4, .f32⟩
  | .hbm, ⟨27, _⟩ => ⟨S4x4, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S1, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_call1_v0 : Ref sig .tc := ⟨.hbm, 19, rfl⟩
abbrev main_call1_v1 : Ref sig .tc := ⟨.hbm, 20, rfl⟩
abbrev main_call1_c : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_cst : Ref sig .tc := ⟨.hbm, 25, rfl⟩
abbrev main_call1_v5 : Ref sig .tc := ⟨.hbm, 26, rfl⟩
abbrev main_call1_v6 : Ref sig .tc := ⟨.hbm, 27, rfl⟩
abbrev main_call1_cst_0 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_cst_4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩

abbrev nD : Nat := 1
abbrev τ : Topo := Topo.v7x

variable {F : FTy → Type} [FloatOps F]

class Facts₀ : Prop where
  shapeCasts_S8192x8192_S8192x4x2048 : S8192x8192.ShapeCasts S8192x4x2048
  reducesTo_S8192x4x2048_S8192x4_d2 : S8192x4x2048.ReducesTo [2] S8192x4
  h_S_ : 0 < S_.numel
  bcast_S8192x4_S8192x4x1_0_1 : S8192x4.BroadcastsInDim S8192x4x1 (![0, 1] : Fin 2 → Fin S8192x4x1.rank)
  bcast_S8192x4x1_S8192x4x2048_0_1_2 : S8192x4x1.BroadcastsInDim S8192x4x2048 (![0, 1, 2] : Fin 3 → Fin S8192x4x2048.rank)
  reducesTo_S8192x4x2048_S4x2048_d0 : S8192x4x2048.ReducesTo [0] S4x2048
  bcast_S_S4x2048 : S_.BroadcastsInDim S4x2048 (![] : Fin 0 → Fin S4x2048.rank)
  transposes_S4x2048_S2048x4_1_0 : S4x2048.Transposes [1, 0] S2048x4
  reducesTo_S4x4_S_d0_1 : S4x4.ReducesTo [0, 1] S_
  bcast_S_S4x4 : S_.BroadcastsInDim S4x4 (![] : Fin 0 → Fin S4x4.rank)
  bcast_S_S1 : S_.BroadcastsInDim S1 (![] : Fin 0 → Fin S1.rank)
  dot_S4x2048_S2048x4_S4x4_1_0_0_1_n_n_wf : DotDims.WF S4x2048 S2048x4 S4x4 [1] [0] [0] [1] [] []

variable [Facts₀]

def dot_S4x2048_S2048x4_S4x4_1_0_0_1_n_n : DotDims S4x2048 S2048x4 S4x4 where
  lhsContracting := [1]
  rhsContracting := [0]
  lhsNonContracting := [0]
  rhsNonContracting := [1]
  lhsBatch := []
  rhsBatch := []
  wf := dot_S4x2048_S2048x4_S4x4_1_0_0_1_n_n_wf

class Facts : Prop extends Facts₀ where

variable [Facts]
-- ==== Proof.CasePieces.lean ====
/-
  What one run of the kernel body leaves in the output's staging buffer, in each of its two control cases, for any
  float values.

  At a later grid point (the reset not taken) the body reads the input block and the buffer's running contents, and
  its one store covers the whole buffer with the payload of the two (`laterPoint`). At the first grid point the body
  first stores the zero block over the whole buffer, so the running contents it then reads back are that zero block,
  and the final covering store writes the payload of the input block and zero (`firstPoint`). In both cases the last
  store covers everything, so what was there before does not show.
-/
import proofs.«168830_j86526411145660_1_alg».proof.Proof.Gen.KernelIdeal.Frame
import Idealize.ShloMosaic.Lib.Pipeline.Value
import Idealize.ShloMosaic.Lib.Tactic

noncomputable section

namespace Cert.KernelIdeal.CasePieces

open Cert.KernelIdeal Cert.KernelIdeal.Gen Idealize.ShloMosaic Idealize.ShloMosaic.TcCoe Idealize.SL.Sem Idealize.ShloMosaic.Tactic

variable {F : FTy → Type} [FloatOps F]

/-- Both buffers are accessed from their origin. -/
theorem origin : (![0, 0] : Fin 2 → Nat) = fun _ => 0 := funext fun a => by fin_cases a <;> rfl

/-- The block the reset stores: zero everywhere. -/
abbrev zeroBlock : FVec F S4x2048 .f32 := k0_pay1 (F := F)

/-- A later point: the buffer holding `acc` ends holding the payload of the input block and `acc`. -/
theorem laterPoint (c : Dev nD) (i : grid0.Coords) (a1 : Memref sig .tc .vmem S256x8192 .f32) (h1 : a1.IsWhole)
    (a2 : Memref sig .tc .vmem S4x2048 .f32) (h2 : a2.IsWhole) (hc : ¬cond0_0 i)
    (blk : Vec F S256x8192 .f32) (acc : Vec F S4x2048 .f32) :
    out0_B_1 c i a1 h1 a2 h2 hc blk acc = k0_pay2 blk acc := by
  unfold out0_B_1
  rw [View.read_writes_eq_canon _ _ _ (cover0_B_1 c i a1 h1 a2 h2 hc blk acc)]
  unfold kernelRun0_B
  dsimp only
  sl_unfold_words
  rw [View.canon_unit_zero origin]
  simp only [View.readAt_eq_ld, h1.read_unread, h2.read_unread, View.ld_unit_zero (S := S256x8192) origin,
    View.ld_unit_zero (S := S4x2048) origin]

/-- The first point: whatever the buffer held, it ends holding the payload of the input block and the zero block. -/
theorem firstPoint (c : Dev nD) (i : grid0.Coords) (a1 : Memref sig .tc .vmem S256x8192 .f32) (h1 : a1.IsWhole)
    (a2 : Memref sig .tc .vmem S4x2048 .f32) (h2 : a2.IsWhole) (hc : cond0_0 i) (blk : Vec F S256x8192 .f32) :
    out0_A_1 c i a1 h1 a2 h2 hc blk = k0_pay2 blk (zeroBlock (F := F)) := by
  unfold out0_A_1
  rw [View.read_writes_eq_canon _ _ _ (cover0_A_1 c i a1 h1 a2 h2 hc blk)]
  unfold kernelRun0_A
  dsimp only
  sl_unfold_words
  rw [View.canon_cons_unit_zero (S := S4x2048) origin, View.readCov_unit_zero (S := S4x2048) _ origin]
  simp only [View.readAt_eq_ld, h1.read_unread, View.ld_unit_zero (S := S256x8192) origin]

end Cert.KernelIdeal.CasePieces

end
-- ==== Proof.PartNormSpec.lean ====
/-
  The quantity both programs compute before their common closing arithmetic, stated once over the extended reals.

  The input is a matrix `x` of 8192 rows, each row cut into four parts of 2048 consecutive columns. Every part of every
  row is divided by its own Euclidean length, `x[b, 2048 p + d] / sqrt (Σ_k x[b, 2048 p + k]²)` (`unitEntry`), and the
  normalised parts are summed down the rows: `colSum x p d = Σ_b unitEntry x b p d`.

  The kernel adds the rows up 256 at a time (`blockSum`, one grid point's contribution) and accumulates the 32 block
  sums in point order (`upTo`); a host sum runs over all 8192 rows at once. Addition on the extended reals is commutative
  and associative with no side condition, so the two groupings agree at every input, infinite entries and zero
  lengths included (`colSum_eq_blocks`, `upTo_last`): nothing here needs the inputs to be finite.
-/
import Idealize.ShloMosaic.PureOps.Ideal
import Idealize.ShloMosaic.Lib.ValueIdx
import Mathlib.Algebra.BigOperators.Fin
import Mathlib.Logic.Equiv.Fin.Basic

noncomputable section

open scoped BigOperators

namespace Cert.PartNorm

open Idealize.ShloMosaic Idealize.ShloMosaic.ValueIdx

/-- The matrix's index set and the result's: 8192 × 8192 and 4 × 2048. -/
abbrev SX : Shape := ⟨2, ![8192, 8192]⟩
abbrev SP : Shape := ⟨2, ![4, 2048]⟩

/-- Column `d` of part `p`: parts are runs of 2048 consecutive columns. -/
def partCol (p : Fin 4) (d : Fin 2048) : Fin 8192 := ⟨2048 * p.val + d.val, by have := p.isLt; have := d.isLt; omega⟩

/-- Row `r` of row block `t`: blocks are runs of 256 consecutive rows. -/
def blockRow (t : Fin 32) (r : Fin 256) : Fin 8192 := ⟨256 * t.val + r.val, by have := t.isLt; have := r.isLt; omega⟩

/-- The Euclidean length of part `p` of row `b`: the root of the sum of the part's squares. -/
def partLen (x : SX.Idx → EReal) (b : Fin 8192) (p : Fin 4) : EReal :=
  Ideal.sqrt (∑ k : Fin 2048, x (ix2 b (partCol p k)) * x (ix2 b (partCol p k)))

/-- One entry of a row's part divided by that part's length. -/
def unitEntry (x : SX.Idx → EReal) (b : Fin 8192) (p : Fin 4) (d : Fin 2048) : EReal :=
  Ideal.div (x (ix2 b (partCol p d))) (partLen x b p)

/-- The normalised parts summed over all rows. -/
def colSum (x : SX.Idx → EReal) (p : Fin 4) (d : Fin 2048) : EReal := ∑ b : Fin 8192, unitEntry x b p d

/-- The same over the 256 rows of one block. -/
def blockSum (x : SX.Idx → EReal) (t : Fin 32) (p : Fin 4) (d : Fin 2048) : EReal :=
  ∑ r : Fin 256, unitEntry x (blockRow t r) p d

/-- Rows are (block, row in block) pairs: row `256 t + r`. -/
def rowEquiv : Fin 32 × Fin 256 ≃ Fin 8192 := finProdFinEquiv

theorem rowEquiv_apply (t : Fin 32) (r : Fin 256) : rowEquiv (t, r) = blockRow t r :=
  Fin.ext (by show r.val + 256 * t.val = 256 * t.val + r.val; omega)

/-- A sum over all rows is the sum over the blocks of the sums over each block's rows. -/
theorem sum_rows_eq_blocks (f : Fin 8192 → EReal) : ∑ b : Fin 8192, f b = ∑ t : Fin 32, ∑ r : Fin 256, f (blockRow t r) := by
  rw [← Equiv.sum_comp rowEquiv f, Fintype.sum_prod_type]
  exact Finset.sum_congr rfl fun t _ => Finset.sum_congr rfl fun r _ => congrArg f (rowEquiv_apply t r)

theorem colSum_eq_blocks (x : SX.Idx → EReal) (p : Fin 4) (d : Fin 2048) :
    colSum x p d = ∑ t : Fin 32, blockSum x t p d :=
  sum_rows_eq_blocks fun b => unitEntry x b p d

/-- Block `t`'s sum for any natural `t`, zero past the last block: the summand of the running sum below. -/
def blockSumN (x : SX.Idx → EReal) (t : ℕ) (p : Fin 4) (d : Fin 2048) : EReal :=
  if h : t < 32 then blockSum x ⟨t, h⟩ p d else 0

theorem blockSumN_of_lt (x : SX.Idx → EReal) (t : ℕ) (h : t < 32) (p : Fin 4) (d : Fin 2048) :
    blockSumN x t p d = blockSum x ⟨t, h⟩ p d := dif_pos h

/-- What has been accumulated once the first `n` blocks are in. -/
def upTo (x : SX.Idx → EReal) (n : ℕ) (p : Fin 4) (d : Fin 2048) : EReal :=
  ∑ t ∈ Finset.range n, blockSumN x t p d

theorem upTo_zero (x : SX.Idx → EReal) (p : Fin 4) (d : Fin 2048) : upTo x 0 p d = 0 := Finset.sum_range_zero _

theorem upTo_succ (x : SX.Idx → EReal) (n : ℕ) (h : n < 32) (p : Fin 4) (d : Fin 2048) :
    upTo x (n + 1) p d = upTo x n p d + blockSum x ⟨n, h⟩ p d := by
  unfold upTo
  rw [Finset.sum_range_succ, blockSumN_of_lt x n h]

/-- After all 32 blocks the running sum is the sum over all rows. -/
theorem upTo_last (x : SX.Idx → EReal) (p : Fin 4) (d : Fin 2048) : upTo x 32 p d = colSum x p d := by
  unfold upTo
  rw [Finset.sum_range, colSum_eq_blocks]
  exact Finset.sum_congr rfl fun t _ => blockSumN_of_lt x t.val t.isLt p d

end Cert.PartNorm

end
-- ==== Proof.BodyValue.lean ====
/-
  What one run of the kernel body adds to the accumulator, read entry by entry at the exact instance.

  The body cuts its 256 × 8192 input block into four 256 × 2048 parts at column offsets 0, 2048, 4096 and 6144. For a
  part it squares the entries, sums each row (a length per row, kept as a 256 × 1 column), takes the root, divides the
  part by the column spread back over the 2048 lanes, and sums the quotients down the 256 rows: a 1 × 2048 row. The four
  rows are stacked into a 4 × 2048 block and added to what the output buffer held.

  All four parts are ONE function of the column offset (`partSums`), so the payload is the old contents plus the
  stacking of `partSums` at the four offsets (`payload_eq`), and entry `(p, d)` of it is
  `old (p, d) + Σ_r block (r, 2048 p + d) / sqrt (Σ_k block (r, 2048 p + k)²)` (`payload_apply`).
-/
import proofs.«168830_j86526411145660_1_alg».proof.Proof.Gen.KernelIdeal.Skeleton
import proofs.«168830_j86526411145660_1_alg».proof.Proof.PartNormSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Idealize.ShloMosaic.Pipeline
open Cert.PartNorm (partCol)

/-! ## Two layout operations of a kept unit axis, read at an index -/

section Layout
variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread over `b` lanes reads, at `(i, c)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Layout

/-! ## The two sums of a 256 × 2048 part, at the exact instance -/

/-- The root of a vector is the root entry by entry. -/
theorem sqrt_apply {s : Shape} {φ : FTy} (v : FVec Ideal s φ) (i : s.Idx) : sqrt v i = Ideal.sqrt (v i) := rfl

/-- The sum along the lanes at row `r`: over the 2048 entries of that row. -/
theorem laneSum_apply (src : FVec Ideal S256x2048 .f32) (h : S256x2048.Reduces [1] S256) (hφ : FKind.Formats .f32)
    (hacc : (0x00000000#32 : BitVec 32) = FKind.add.neutral .f32 hφ) (r : Fin 256) :
    multiReduction .add [1] S256 src 0x00000000#32 h hφ hacc (ix1 r) = ∑ k : Fin 2048, src (ix2 r k) :=
  (Ideal.multiReduction_add_single src 0x00000000#32 h hφ hacc (ix1 r)).trans
    (Finset.sum_congr rfl fun k _ => congrArg src (funext fun ax => by
      match ax with
      | ⟨0, _⟩ => exact Fin.ext rfl
      | ⟨1, _⟩ => exact Fin.ext rfl))

/-- The sum down the rows at lane `d`: over the 256 entries of that column. -/
theorem rowSum_apply (src : FVec Ideal S256x2048 .f32) (h : S256x2048.Reduces [0] S2048) (hφ : FKind.Formats .f32)
    (hacc : (0x00000000#32 : BitVec 32) = FKind.add.neutral .f32 hφ) (d : Fin 2048) :
    multiReduction .add [0] S2048 src 0x00000000#32 h hφ hacc (ix1 d) = ∑ r : Fin 256, src (ix2 r d) :=
  (Ideal.multiReduction_add_single src 0x00000000#32 h hφ hacc (ix1 d)).trans
    (Finset.sum_congr rfl fun r _ => congrArg src (funext fun ax => by
      match ax with
      | ⟨0, _⟩ => exact Fin.ext rfl
      | ⟨1, _⟩ => exact Fin.ext rfl))

/-! ## One part's contribution, as a function of its column offset -/

variable {F : FTy → Type} [FloatOps F]

/-- The part of the block that starts at column `off`, normalised row by row and summed down the rows. -/
def partSums (off : Nat) (hs : S256x8192.Slices ![0, off] S256x2048) (blk : FVec F S256x8192 .f32) : FVec F S1x2048 .f32 :=
  shapeCast S1x2048
    (multiReduction .add [0] S2048
      (divf (extractStridedSlice S256x2048 ![0, off] blk hs)
        (broadcastTo S256x2048
          (sqrt (shapeCast S256x1
            (multiReduction .add [1] S256
              (mulf (extractStridedSlice S256x2048 ![0, off] blk hs) (extractStridedSlice S256x2048 ![0, off] blk hs))
              0x00000000#32 reduces_S256x2048_S256 (.inl rfl) rfl)
            shapeCasts_S256_S256x1))
          broadcasts_S256x1_S256x2048))
      0x00000000#32 reduces_S256x2048_S2048 (.inl rfl) rfl)
    shapeCasts_S2048_S1x2048

/-- At the exact instance: entry `d` of the part's row is the sum over the block's rows of the entry at column
    `off + d` over the root of the sum of the squares of the part's 2048 entries in that row. -/
theorem partSums_apply (off : Nat) (hs : S256x8192.Slices ![0, off] S256x2048) (blk : FVec Ideal S256x8192 .f32)
    (cl : Fin 2048 → Fin 8192) (hcl : ∀ k, (cl k).val = off + k.val) (u : Fin 1) (d : Fin 2048) :
    partSums off hs blk (ix2 u d)
      = ∑ r : Fin 256, Ideal.div (blk (ix2 r (cl d)))
          (Ideal.sqrt (∑ k : Fin 2048, blk (ix2 r (cl k)) * blk (ix2 r (cl k)))) := by
  unfold partSums
  refine (shapeCast_a_1a_apply _ _ u d).trans ?_
  refine (rowSum_apply _ _ _ _ d).trans ?_
  refine Finset.sum_congr rfl fun r _ => ?_
  refine (divf_apply _ _ (ix2 r d)).trans ?_
  refine congrArg₂ Ideal.div (slice2_axis1_apply off blk hs r d (cl d) (hcl d)) ?_
  refine (broadcastTo_a1_ab_apply _ _ r d).trans ?_
  refine (sqrt_apply _ (ix2 r (0 : Fin 1))).trans ?_
  refine congrArg Ideal.sqrt ?_
  refine (shapeCast_a_a1_apply _ _ r 0).trans ?_
  refine (laneSum_apply _ _ _ _ r).trans ?_
  refine Finset.sum_congr rfl fun k _ => ?_
  refine (mulf_apply _ _ (ix2 r k)).trans ?_
  rw [slice2_axis1_apply off blk hs r k (cl k) (hcl k)]

/-! ## The payload: the old contents plus the four parts stacked -/

theorem slices_part (n : Fin 4) : S256x8192.Slices ![0, 2048 * n.val] S256x2048 := by
  refine ⟨rfl, fun a => ?_⟩
  have hn := n.isLt
  match a with
  | ⟨0, _⟩ => show 0 + 256 ≤ 256; omega
  | ⟨1, _⟩ => show 2048 * n.val + 2048 ≤ 8192; omega

/-- Part `n`'s row: the part at column offset `2048 n`. -/
def partRow (blk : FVec F S256x8192 .f32) (n : Fin 4) : FVec F S1x2048 .f32 := partSums (2048 * n.val) (slices_part n) blk

/-- The value the body stores back: what the output buffer held plus the four parts' rows stacked in order. -/
theorem payload_eq (blk : FVec F S256x8192 .f32) (old : FVec F S4x2048 .f32) :
    k0_pay2 blk old
      = addf (shapeCast S4x2048 old shapeCasts_S4x2048_S4x2048)
          (concatenate S4x2048 0 (List.ofFn fun n : Fin 4 => (⟨S1x2048, partRow blk n⟩ : (s : Shape) × (s.Idx → F .f32)))
            concatenates_S1x2048_S1x2048_S1x2048_S1x2048_S4x2048_d0) := rfl

/-- Entry `(p, d)` of the stored value: the old entry plus, over the block's 256 rows, the entry of part `p` at offset
    `d` divided by the length of part `p` of that row. -/
theorem payload_apply (blk : FVec Ideal S256x8192 .f32) (old : FVec Ideal S4x2048 .f32) (p : Fin 4) (d : Fin 2048) :
    k0_pay2 (F := Ideal) blk old (ix2 p d)
      = old (ix2 p d) + ∑ r : Fin 256, Ideal.div (blk (ix2 r (partCol p d)))
          (Ideal.sqrt (∑ k : Fin 2048, blk (ix2 r (partCol p k)) * blk (ix2 r (partCol p k)))) := by
  refine (congrFun (payload_eq blk old) (ix2 p d)).trans ?_
  show shapeCast S4x2048 old shapeCasts_S4x2048_S4x2048 (ix2 p d) + concatenate S4x2048 0 _ _ (ix2 p d) = _
  refine congrArg₂ (· + ·) (congrFun (shapeCast_self old _) _) ?_
  refine (concatenate_ofFn_unit_apply (t := S4x2048) (s₁ := S1x2048) (0 : Fin 2) (partRow blk) _ rfl rfl (ix2 p d) p rfl (ix2 (0 : Fin 1) d) fun b hb => ?_).trans ?_
  · match b with
    | ⟨0, _⟩ => exact absurd rfl hb
    | ⟨1, _⟩ => rfl
  · exact partSums_apply (2048 * p.val) (slices_part p) blk (partCol p) (fun _ => rfl) 0 d

end Cert.KernelIdeal.BodyValue

end
-- ==== Proof.Accumulate.lean ====
/-
  The output's staging buffer after each grid point, at the exact instance: after point `n` entry `(p, d)` holds the sum,
  over the first `n + 1` row blocks of the matrix, of every row's entry `(p, d)` divided by the length of the row's
  part `p`. By induction on the point: the first point leaves zero plus its own block's sum, every later point what
  the point before left plus its own block's sum; and the input block the pipeline stages at point `t` is rows
  `256 t … 256 t + 255` of the matrix, all 8192 columns. After the last point this is the sum over all 8192 rows.
-/
import proofs.«168830_j86526411145660_1_alg».proof.Proof.Gen.KernelIdeal.Frame
import proofs.«168830_j86526411145660_1_alg».proof.Proof.CasePieces
import proofs.«168830_j86526411145660_1_alg».proof.Proof.BodyValue
import proofs.«168830_j86526411145660_1_alg».proof.Proof.PartNormSpec
import Idealize.ShloMosaic.Lib.Pipeline.Value
import Idealize.ShloMosaic.PureOps.Ideal.Laws

noncomputable section

open scoped BigOperators

namespace Cert.KernelIdeal.Accumulate

open Cert.KernelIdeal Cert.KernelIdeal.Gen Idealize.ShloMosaic Idealize.ShloMosaic.TcCoe Idealize.SL.Sem
open Idealize.ShloMosaic.ValueIdx
open Cert.PartNorm (partCol blockRow unitEntry partLen blockSum upTo upTo_zero upTo_succ upTo_last colSum)
open Cert.KernelIdeal.CasePieces (laterPoint firstPoint zeroBlock)
open Cert.KernelIdeal.BodyValue (payload_apply)

variable (m : (ℓ : Loc nD τ sig) → Buf (Elt Ideal) ℓ)

/-- The matrix as the region finds it. -/
def matrix (c : Dev nD) : FVec Ideal S8192x8192 .f32 := V m c main_arg0

/-- The block of it the pipeline stages for point `t`. -/
def rowBlock (c : Dev nD) (t : Fin cfg0.N) : FVec Ideal S256x8192 .f32 := iblk m c 0 t

/-- The input window's block index at point `t` is `(t, 0)`: decided over the 32 points. -/
theorem blockIndex : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry `(r, j)` of the block at point `t` is entry `(256 t + r, j)` of the matrix. -/
theorem rowBlock_apply (c : Dev nD) (t : Fin cfg0.N) (ht : t.val < 32) (r : Fin 256) (j : Fin 8192) :
    rowBlock m c t (ix2 r j) = matrix m c (ix2 (blockRow ⟨t.val, ht⟩ r) j) := by
  have hi := blockIndex t
  unfold rowBlock matrix iblk
  rw [View.read_apply]
  show V m c main_arg0 _ = V m c main_arg0 _
  congr 1
  funext a
  apply Fin.ext
  match a with
  | ⟨0, _⟩ => show win0_0.index t 0 * 256 + 1 * r.val = 256 * t.val + r.val; rw [hi.1]; omega
  | ⟨1, _⟩ => show win0_0.index t 1 * 8192 + 1 * j.val = j.val; rw [hi.2]; omega

/-- What a point's run adds at entry `(p, d)`, written over its block, is that block's sum of the matrix. -/
theorem pointSum (c : Dev nD) (t : Fin cfg0.N) (ht : t.val < 32) (p : Fin 4) (d : Fin 2048) :
    (∑ r : Fin 256, Ideal.div (rowBlock m c t (ix2 r (partCol p d)))
        (Ideal.sqrt (∑ k : Fin 2048, rowBlock m c t (ix2 r (partCol p k)) * rowBlock m c t (ix2 r (partCol p k)))))
      = blockSum (matrix m c) ⟨t.val, ht⟩ p d := by
  unfold blockSum unitEntry partLen
  simp only [rowBlock_apply m c t ht]

/-- The zero block reads zero everywhere. -/
theorem zeroBlock_apply (j : S4x2048.Idx) : zeroBlock (F := Ideal) j = 0 := Ideal.ofBits_zero_f32

/-- After point `n` the buffer holds the running sum over the first `n + 1` row blocks. -/
theorem outsAt_apply (c : Dev nD) : ∀ (n : ℕ) (h : n < cfg0.N) (p : Fin 4) (d : Fin 2048),
    outsAt0 m c n h (ix2 p d) = upTo (matrix m c) (n + 1) p d
  | 0, h, p, d => by
    rw [outsAt0_A m c ⟨0, h⟩ rfl]
    refine (congrFun (firstPoint (F := Ideal) c (grid0.coords ⟨0, h⟩) (ms0_0 ⟨0, h⟩) (hs0_0 ⟨0, h⟩) (ms0_1 ⟨0, h⟩) (hs0_1 ⟨0, h⟩)
      ((hcond0_0 ⟨0, h⟩).mpr rfl) (iblk m c 0 ⟨0, h⟩)) (ix2 p d)).trans ?_
    refine (payload_apply (rowBlock m c ⟨0, h⟩) (zeroBlock (F := Ideal)) p d).trans ?_
    rw [zeroBlock_apply, pointSum m c ⟨0, h⟩ (Nat.zero_lt_succ 31) p d, upTo_succ _ 0 (Nat.zero_lt_succ 31), upTo_zero]
  | n + 1, h, p, d => by
    have hN : cfg0.N = 32 := N_0
    have hlt : n + 1 < 32 := hN ▸ h
    have hB : ¬(⟨n + 1, h⟩ : Fin cfg0.N).val % 32 = 0 := by dsimp only; omega
    rw [outsAt0_B m c ⟨n + 1, h⟩ hB]
    refine (congrFun (laterPoint (F := Ideal) c (grid0.coords ⟨n + 1, h⟩) (ms0_0 ⟨n + 1, h⟩) (hs0_0 ⟨n + 1, h⟩) (ms0_1 ⟨n + 1, h⟩)
      (hs0_1 ⟨n + 1, h⟩) (fun hh => hB ((hcond0_0 ⟨n + 1, h⟩).mp hh)) (iblk m c 0 ⟨n + 1, h⟩)
      (outsAt0 m c n (Nat.lt_of_succ_lt h))) (ix2 p d)).trans ?_
    refine (payload_apply (rowBlock m c ⟨n + 1, h⟩) (outsAt0 m c n (Nat.lt_of_succ_lt h)) p d).trans ?_
    rw [outsAt_apply c n (Nat.lt_of_succ_lt h) p d, pointSum m c ⟨n + 1, h⟩ hlt p d, upTo_succ _ (n + 1) hlt]

/-- After the last point: the sum over all 8192 rows. -/
theorem outsAt_last (c : Dev nD) (h : 31 < cfg0.N) (p : Fin 4) (d : Fin 2048) :
    outsAt0 m c 31 h (ix2 p d) = colSum (matrix m c) p d :=
  (outsAt_apply m c 31 h p d).trans (upTo_last _ p d)

end Cert.KernelIdeal.Accumulate

end
-- ==== Proof.Closing.lean ====
/-
  The arithmetic both programs end with, as ONE function of the summed normalised parts `s` (4 × 2048) and the scale
  `g` (one entry): the mean over the 8192 rows, `μ = s / 8192`; the 4 × 4 matrix of inner products of the parts' means,
  `C = μ μᵀ`; the sum of all its entries and the sum of its diagonal (the diagonal picked by comparing a row counter
  with a column counter and replacing the other entries by zero); and `((ΣC − 3 · tr C) + 8) / 2`, times `g`.

  The kernel's program and the reference apply exactly these operations to what they computed before, so the value
  certificate only has to show that the two arguments agree: the function itself is never opened.
-/
import Idealize.ShloMosaic.PureOps

noncomputable section

namespace Cert.PartNorm

open Idealize.ShloMosaic

variable {F : FTy → Type} [FloatOps F]

abbrev T4x2048 : Shape := ⟨2, ![4, 2048]⟩
abbrev T2048x4 : Shape := ⟨2, ![2048, 4]⟩
abbrev T4x4 : Shape := ⟨2, ![4, 4]⟩
abbrev T1 : Shape := ⟨1, ![1]⟩
abbrev T0 : Shape := ⟨0, ![]⟩

theorem bc_0_4x2048 : T0.BroadcastsInDim T4x2048 (![] : Fin 0 → Fin T4x2048.rank) := by decide
theorem bc_0_4x4 : T0.BroadcastsInDim T4x4 (![] : Fin 0 → Fin T4x4.rank) := by decide
theorem bc_0_1 : T0.BroadcastsInDim T1 (![] : Fin 0 → Fin T1.rank) := by decide
theorem tr_4x2048 : T4x2048.Transposes [1, 0] T2048x4 := by decide
theorem red_4x4 : T4x4.ReducesTo [0, 1] T0 := by decide
theorem pos_0 : 0 < T0.numel := by decide
theorem dot_wf : DotDims.WF T4x2048 T2048x4 T4x4 [1] [0] [0] [1] [] [] := by decide

/-- Rows of the left factor against columns of the right one: contract axis 1 with axis 0. -/
def gramDims : DotDims T4x2048 T2048x4 T4x4 where
  lhsContracting := [1]
  rhsContracting := [0]
  lhsNonContracting := [0]
  rhsNonContracting := [1]
  lhsBatch := []
  rhsBatch := []
  wf := dot_wf

/-- The mean over the 8192 rows. -/
def rowMean (s : FVec F T4x2048 .f32) : FVec F T4x2048 .f32 :=
  Host.divf s (broadcastInDim T4x2048 ![] bc_0_4x2048 (constant (F := F) T0 .f32 0x46000000#32))

/-- The inner products of the four parts' means with one another. -/
def gram (s : FVec F T4x2048 .f32) : FVec F T4x4 .f32 :=
  Host.dotGeneral gramDims none (rowMean s) (transpose T2048x4 [1, 0] (rowMean s) tr_4x2048)

/-- The sum of all sixteen inner products. -/
def gramTotal (s : FVec F T4x2048 .f32) : FVec F T0 .f32 :=
  Host.reduceAdd (gram s) (constant (F := F) T0 .f32 0x00000000#32) red_4x4 pos_0

/-- The sum of the four diagonal ones: the others replaced by zero first. -/
def gramTrace (s : FVec F T4x2048 .f32) : FVec F T0 .f32 :=
  Host.reduceAdd
    (select (cmpi .eq (addi (iotaInDim T4x4 32 0) (broadcastInDim T4x4 ![] bc_0_4x4 (constantI T0 32 0#32))) (iotaInDim T4x4 32 1))
      (gram s) (broadcastInDim T4x4 ![] bc_0_4x4 (constant (F := F) T0 .f32 0x00000000#32)))
    (constant (F := F) T0 .f32 0x00000000#32) red_4x4 pos_0

/-- `((ΣC − 3 · tr C) + 8) / 2`, scaled by `g`. -/
def closing (s : FVec F T4x2048 .f32) (g : FVec F T1 .f32) : FVec F T1 .f32 :=
  mulf (broadcastInDim T1 ![] bc_0_1
      (Host.divf (addf (subf (gramTotal s) (mulf (constant (F := F) T0 .f32 0x40400000#32) (gramTrace s)))
          (constant (F := F) T0 .f32 0x41000000#32))
        (constant (F := F) T0 .f32 0x40000000#32)))
    g

end Cert.PartNorm

end
-- ==== Proof.KernelRun.lean ====
/-
  The kernel's program run, read at the exact instance. The output window's block is the whole 4 × 2048 result array
  and its index never moves, so the array is written back once, after the last grid point, with what the staging
  buffer then holds: the sums over all 8192 rows (`summed`). The host operations after the region divide by 8192, form
  the inner products of the four means, and finish with the closing arithmetic: as a function of the array and the
  scale they are `closing`, whatever the other buffers hold (`tail_eq`). Neither argument is written.
-/
import proofs.«168830_j86526411145660_1_alg».proof.Proof.Gen.KernelIdeal.Frame
import proofs.«168830_j86526411145660_1_alg».proof.Proof.Accumulate
import proofs.«168830_j86526411145660_1_alg».proof.Proof.Closing
import Idealize.ShloMosaic.Lib.Pipeline.Value
import Idealize.ShloMosaic.Lib.StableHlo.Run

noncomputable section

namespace Cert.KernelIdeal.KernelRun

open Cert.KernelIdeal Cert.KernelIdeal.Gen Idealize.ShloMosaic Idealize.ShloMosaic.TcCoe Idealize.SL.Sem
open Idealize.ShloMosaic.ValueIdx
open Idealize.ShloMosaic.Pipeline (Dat)
open Cert.PartNorm (colSum closing)
open Cert.KernelIdeal.Accumulate (matrix outsAt_last)

/-! ## The host operations after the region -/

section Tail
variable {F : FTy → Type} [FloatOps F]

/-- From any buffer contents, the twenty-seven operations after the region leave in the result buffer the closing
    arithmetic of what the kernel's result array and the scale argument hold. -/
theorem tail_eq (W : Valuation τ sig (Elt F)) :
    StableHlo.after (List.flatten [hostOps1, hostOps1_1, hostOps1_2]) W (Proc.devRef .tc main_v12)
      = closing (W (Proc.devRef .tc main_v0)) (W (Proc.devRef .tc main_arg1)) := by
  simp only [hostOps1, hostOps1_1, hostOps1_2, List.flatten_cons, List.flatten_nil, List.append_nil, List.cons_append,
    List.nil_append]
  after_results_simp
  rfl

end Tail

variable (m : (ℓ : Loc nD τ sig) → Buf (Elt Ideal) ℓ) (ρ : Dev nD → PrngReg)

/-- The normalised parts of a matrix summed over all its rows, as a 4 × 2048 array. -/
def summed (x : FVec Ideal S8192x8192 .f32) : FVec Ideal S4x2048 .f32 := fun j => colSum x (j 0) (j 1)

/-! ## The one write-back and the array it leaves -/

/-- The output window sits at block index (0, 0) at every point and moves its whole 4 × 2048 block. -/
theorem outGeometry : ∀ t : Fin cfg0.N, win0_1.index t (0 : Fin 2) = 0 ∧ win0_1.index t (1 : Fin 2) = 0
    ∧ win0_1.xsize (grid0.coords t) (0 : Fin 2) = 4 ∧ win0_1.xsize (grid0.coords t) (1 : Fin 2) = 2048 :=
  (by decide +kernel : ∀ t : Fin grid0.N, win0_1.index t (0 : Fin 2) = 0 ∧ win0_1.index t (1 : Fin 2) = 0
    ∧ win0_1.xsize (grid0.coords t) (0 : Fin 2) = 4 ∧ win0_1.xsize (grid0.coords t) (1 : Fin 2) = 2048)

/-- The last grid point. -/
def lastPoint : Fin cfg0.N := ⟨31, by show 31 < grid0.N; decide⟩

/-- A point that writes the output back is the last one, and what it writes, read as a block of the array, is the
    block of the row sums: the block is the whole array, read from its origin. -/
theorem flushed_eq (c : Dev nD) (t : Fin cfg0.N) (hf : (cfg0.win 1).flush t = true) :
    (dats m 0 c).flushed 1 t = ((cfg0.win 1).blk t).view.read (Elt Ideal) (summed (matrix m c)) := by
  have hN : cfg0.N = 32 := N_0
  have h31 : t.val = 31 := by have := (flush0_1 t).mp hf; have := t.isLt; omega
  have hg := outGeometry t
  have horigin : (fun a => win0_1.index t a * main_v0.ty.shape.size a) = fun _ => 0 := funext fun a => by
    match a with
    | ⟨0, _⟩ => show win0_1.index t 0 * _ = 0; rw [hg.1, Nat.zero_mul]
    | ⟨1, _⟩ => show win0_1.index t 1 * _ = 0; rw [hg.2.1, Nat.zero_mul]
  show (cfg0.win 1).cut (grid0.coords t) ((dats m 0 c).after 1 t) = _
  rw [after0_1]
  refine Eq.trans ?_ (Memref.read_access_unit_zero (Elt Ideal) main_v0 horigin
    (fun a => by rw [congrFun horigin a]; simp) (summed (matrix m c))).symm
  obtain ⟨n, hn⟩ := t
  obtain rfl : n = 31 := h31
  funext j
  obtain ⟨p, d, rfl⟩ : ∃ (p : Fin 4) (d : Fin 2048), j = ix2 p d := ⟨j 0, j 1, eq_ix2 j⟩
  exact outsAt_last m c hn p d

/-- So the result array ends holding the row sums. -/
theorem finalArray (c : Dev nD) : (dats m 0 c).arrAt 1 cfg0.N = summed (matrix m c) :=
  (dats m 0 c).arrAt_eq_of_cover 1 (summed (matrix m c)) (flushed_eq m c) fun i =>
    ⟨lastPoint, (flush0_1 lastPoint).mpr rfl, by
      have hg := outGeometry lastPoint
      show i ∈ ((View.whole main_v0).slice (win0_1.rect lastPoint)).set
      rw [View.set_slice_whole, Rect.mem_set_unit]
      intro a
      match a with
      | ⟨0, _⟩ =>
        show win0_1.index lastPoint 0 * win0_1.size 0 ≤ (i 0 : Nat)
          ∧ (i 0 : Nat) < win0_1.index lastPoint 0 * win0_1.size 0 + win0_1.xsize (grid0.coords lastPoint) 0
        rw [hg.1, hg.2.2.1, Nat.zero_mul]
        have : (i 0 : Nat) < 4 := (i 0).isLt
        omega
      | ⟨1, _⟩ =>
        show win0_1.index lastPoint 1 * win0_1.size 1 ≤ (i 1 : Nat)
          ∧ (i 1 : Nat) < win0_1.index lastPoint 1 * win0_1.size 1 + win0_1.xsize (grid0.coords lastPoint) 1
        rw [hg.2.1, hg.2.2.2, Nat.zero_mul]
        have : (i 1 : Nat) < 2048 := (i 1).isLt
        omega⟩

/-! ## The result buffer after the host operations, and the run -/

/-- The result buffer after the lines that follow the region. -/
theorem resultValue (c : Dev nD) :
    Pipeline.afterTail₀ cfgs (dats m) 0 (V0 m) [hostOps1, hostOps1_1, hostOps1_2] c main_v12
      = closing (summed (m ((c : Thread nD τ).loc main_arg0))) (m ((c : Thread nD τ).loc main_arg1)) := by
  unfold Pipeline.afterTail₀
  rw [tail_eq]
  have e0 : Pipeline.withArrays (cfgs 0).spec c (V0 m c) (fun w => (dats m 0 c).arrAt w (cfgs 0).N) (Proc.devRef .tc main_v0)
      = summed (matrix m c) :=
    (Pipeline.withArrays_arr spec0 launch0.win.arr_inj c _ _ 1).trans (finalArray m c)
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  rw [e0, e1]
  rfl

/-- On every device, from any memory with zero counters: every weakly fair execution of the kernel's program
    terminates with the result at the closing arithmetic of the matrix's row sums and the scale, both arguments
    unchanged. -/
theorem run : θ_run defs (onTc (τ := τ) (main (F := Ideal))) ⟨m, fun _ => 0, ρ⟩ fun r => ∀ c : Dev nD,
      r.2.mem ((c.tc : Thread nD τ).loc main_v12)
        = closing (summed (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v12 (Pipeline.mem_restRefs_of main_v12 (by decide) (by decide))).trans (resultValue m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KernelRun

end
-- ==== Proof.RefRun.lean ====
/-
  The reference program's run. Its @main is a straight line of 38 host operations once the three functions it calls
  are written out at their call sites (the norm: square, sum along the last axis, root; the trace:
  two counters compared, the off-diagonal entries replaced by zero, a sum), each into the buffers of that call.
  Every weakly fair execution ends with the result at `closing (normalisedSum x) g`:
  `x` viewed as 8192 × 4 × 2048, every length-2048 fibre divided by the root of the sum of its squares, the quotients
  summed over the 8192 rows, and then the closing arithmetic shared with the kernel's program.
-/
import proofs.«168830_j86526411145660_1_alg».proof.Proof.Gen.ReferenceIdeal
import proofs.«168830_j86526411145660_1_alg».proof.Proof.Closing
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls written out: one reshape, the norm's five, eleven of @main's own, the
    trace's eleven (the select is the innermost call's one operation), and the closing nine. -/
abbrev ops : List (HloOp τ sig (Elt F)) :=
  [ reshape main_arg0 main_v0 rfl shapeCasts_S8192x8192_S8192x4x2048,
    TRef.binary (.of main_v0) (.of main_v0) main_call0.v0 mulf,
    TRef.nullary main_call0.cst (constant S_ .f32 0x00000000#32),
    TRef.binary main_call0.v0 main_call0.cst main_call0.v1 (fun x v => Host.reduceAdd x v reducesTo_S8192x4x2048_S8192x4_d2 h_S_),
    TRef.unary main_call0.v1 main_call0.v2 (broadcastInDim S8192x4x1 ![0, 1] bcast_S8192x4_S8192x4x1_0_1),
    TRef.unary main_call0.v2 main_call0.v3 Host.sqrt,
    unary main_v1 main_v2 (broadcastInDim S8192x4x2048 ![0, 1, 2] bcast_S8192x4x1_S8192x4x2048_0_1_2 : (⟨S8192x4x1, .f32⟩ : BufTy).Contents (Elt F) → (⟨S8192x4x2048, .f32⟩ : BufTy).Contents (Elt F)),
    binary main_v0 main_v2 main_v3 (Host.divf : (⟨S8192x4x2048, .f32⟩ : BufTy).Contents (Elt F) → (⟨S8192x4x2048, .f32⟩ : BufTy).Contents (Elt F) → (⟨S8192x4x2048, .f32⟩ : BufTy).Contents (Elt F)),
    nullary main_cst (constant S_ .f32 0x00000000#32),
    binary main_v3 main_cst main_v4 ((fun x v => Host.reduceAdd x v reducesTo_S8192x4x2048_S4x2048_d0 h_S_) : (⟨S8192x4x2048, .f32⟩ : BufTy).Contents (Elt F) → (⟨S_, .f32⟩ : BufTy).Contents (Elt F) → (⟨S4x2048, .f32⟩ : BufTy).Contents (Elt F)),
    nullary main_cst_0 (constant S_ .f32 0x46000000#32),
    unary main_cst_0 main_v5 (broadcastInDim S4x2048 ![] bcast_S_S4x2048 : (⟨S_, .f32⟩ : BufTy).Contents (Elt F) → (⟨S4x2048, .f32⟩ : BufTy).Contents (Elt F)),
    binary main_v4 main_v5 main_v6 (Host.divf : (⟨S4x2048, .f32⟩ : BufTy).Contents (Elt F) → (⟨S4x2048, .f32⟩ : BufTy).Contents (Elt F) → (⟨S4x2048, .f32⟩ : BufTy).Contents (Elt F)),
    unary main_v6 main_v7 ((transpose S2048x4 [1, 0] · transposes_S4x2048_S2048x4_1_0) : (⟨S4x2048, .f32⟩ : BufTy).Contents (Elt F) → (⟨S2048x4, .f32⟩ : BufTy).Contents (Elt F)),
    binary main_v6 main_v7 main_v8 ((fun l r => Host.dotGeneral dot_S4x2048_S2048x4_S4x4_1_0_0_1_n_n none l r) : (⟨S4x2048, .f32⟩ : BufTy).Contents (Elt F) → (⟨S2048x4, .f32⟩ : BufTy).Contents (Elt F) → (⟨S4x4, .f32⟩ : BufTy).Contents (Elt F)),
    nullary main_cst_1 (constant S_ .f32 0x00000000#32),
    binary main_v8 main_cst_1 main_v9 ((fun x v => Host.reduceAdd x v reducesTo_S4x4_S_d0_1 h_S_) : (⟨S4x4, .f32⟩ : BufTy).Contents (Elt F) → (⟨S_, .f32⟩ : BufTy).Contents (Elt F) → (⟨S_, .f32⟩ : BufTy).Contents (Elt F)),
    TRef.nullary main_call1.v0 (iotaInDim S4x4 32 0),
    TRef.nullary main_call1.v1 (iotaInDim S4x4 32 1),
    TRef.nullary main_call1.c (constantI S_ 32 0#32),
    TRef.unary main_call1.c main_call1.v2 (broadcastInDim S4x4 ![] bcast_S_S4x4),
    TRef.binary main_call1.v0 main_call1.v2 main_call1.v3 addi,
    TRef.binary main_call1.v3 main_call1.v1 main_call1.v4 (cmpi .eq),
    TRef.nullary main_call1.cst (constant S_ .f32 0x00000000#32),
    TRef.unary main_call1.cst main_call1.v5 (broadcastInDim S4x4 ![] bcast_S_S4x4),
    TRef.ternary main_call1.v4 (.of main_v8) main_call1.v5 main_call1.call0.v0 select,
    TRef.nullary main_call1.cst_0 (constant S_ .f32 0x00000000#32),
    TRef.binary main_call1.call0.v0 main_call1.cst_0 main_call1.v7 (fun x v => Host.reduceAdd x v reducesTo_S4x4_S_d0_1 h_S_),
    nullary main_cst_2 (constant S_ .f32 0x40400000#32),
    binary main_cst_2 main_v10 main_v11 (mulf : (⟨S_, .f32⟩ : BufTy).Contents (Elt F) → (⟨S_, .f32⟩ : BufTy).Contents (Elt F) → (⟨S_, .f32⟩ : BufTy).Contents (Elt F)),
    binary main_v9 main_v11 main_v12 (subf : (⟨S_, .f32⟩ : BufTy).Contents (Elt F) → (⟨S_, .f32⟩ : BufTy).Contents (Elt F) → (⟨S_, .f32⟩ : BufTy).Contents (Elt F)),
    nullary main_cst_3 (constant S_ .f32 0x41000000#32),
    binary main_v12 main_cst_3 main_v13 (addf : (⟨S_, .f32⟩ : BufTy).Contents (Elt F) → (⟨S_, .f32⟩ : BufTy).Contents (Elt F) → (⟨S_, .f32⟩ : BufTy).Contents (Elt F)),
    nullary main_cst_4 (constant S_ .f32 0x40000000#32),
    binary main_v13 main_cst_4 main_v14 (Host.divf : (⟨S_, .f32⟩ : BufTy).Contents (Elt F) → (⟨S_, .f32⟩ : BufTy).Contents (Elt F) → (⟨S_, .f32⟩ : BufTy).Contents (Elt F)),
    unary main_v14 main_v15 (broadcastInDim S1 ![] bcast_S_S1 : (⟨S_, .f32⟩ : BufTy).Contents (Elt F) → (⟨S1, .f32⟩ : BufTy).Contents (Elt F)),
    binary main_v15 main_arg1 main_v16 (mulf : (⟨S1, .f32⟩ : BufTy).Contents (Elt F) → (⟨S1, .f32⟩ : BufTy).Contents (Elt F) → (⟨S1, .f32⟩ : BufTy).Contents (Elt F)) ]

-- thirty-eight binds re-associated: the rewrite under the chain recurses once per statement
set_option maxRecDepth 2048 in
/-- @main is that straight line: the three functions' bodies put in place of their calls, the sequencing re-associated. -/
theorem main_eq (c : Dev nD) : main (F := F) c = seq ops := by
  simp only [main, fn_norm.body, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., binary_bufs_sub .., nullary_bufs_sub .., binary_bufs_sub .., unary_bufs_sub .., unary_bufs_sub ..,
    unary_bufs_sub .., binary_bufs_sub .., nullary_bufs_sub .., binary_bufs_sub .., nullary_bufs_sub .., unary_bufs_sub ..,
    binary_bufs_sub .., unary_bufs_sub .., binary_bufs_sub .., nullary_bufs_sub .., binary_bufs_sub ..,
    nullary_bufs_sub .., nullary_bufs_sub .., nullary_bufs_sub .., unary_bufs_sub .., binary_bufs_sub .., binary_bufs_sub ..,
    nullary_bufs_sub .., unary_bufs_sub .., ternary_bufs_sub .., nullary_bufs_sub .., binary_bufs_sub ..,
    nullary_bufs_sub .., binary_bufs_sub .., binary_bufs_sub .., nullary_bufs_sub .., binary_bufs_sub .., nullary_bufs_sub ..,
    binary_bufs_sub .., unary_bufs_sub .., binary_bufs_sub ..⟩

/-- The matrix viewed as 8192 × 4 × 2048: row `b`, part `p`, offset `d` (the same row-major position). -/
def parts (x : FVec F S8192x8192 .f32) : FVec F S8192x4x2048 .f32 :=
  shapeCast S8192x4x2048 x shapeCasts_S8192x8192_S8192x4x2048

/-- Each part's length, kept as a unit axis: the root of the sum of squares along the last axis, from zero. -/
def lengths (x : FVec F S8192x8192 .f32) : FVec F S8192x4x1 .f32 :=
  Host.sqrt (broadcastInDim S8192x4x1 ![0, 1] bcast_S8192x4_S8192x4x1_0_1
    (Host.reduceAdd (mulf (parts x) (parts x)) (constant (F := F) S_ .f32 0x00000000#32) reducesTo_S8192x4x2048_S8192x4_d2 h_S_))

/-- Every part divided by its length, summed over the rows from zero. -/
def normalisedSum (x : FVec F S8192x8192 .f32) : FVec F S4x2048 .f32 :=
  Host.reduceAdd (Host.divf (parts x) (broadcastInDim S8192x4x2048 ![0, 1, 2] bcast_S8192x4x1_S8192x4x2048_0_1_2 (lengths x)))
    (constant (F := F) S_ .f32 0x00000000#32) reducesTo_S8192x4x2048_S4x2048_d0 h_S_

/-- On every device, for any float values, from any memory with zero counters: every weakly fair execution of @main
    terminates with the result at the closing arithmetic of the normalised sum of the first argument and the second
    argument, both arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
        = Cert.PartNorm.closing (normalisedSum (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v16).trans (by after_results_simp; rfl),
      (h c main_arg0).trans (by after_results_simp),
      (h c main_arg1).trans (by after_results_simp)⟩)
    (run_seq scopedRefs_eq scopedSems_eq defs main (fun _ => ops) main_eq (fun _ => ops_sub) m ρ)

end Cert.ReferenceIdeal.RefValue

end
-- ==== Proof.RefRead.lean ====
/-
  The reference's sum, read entry by entry at the exact instance. Reshaping the 8192 × 8192 matrix to 8192 × 4 × 2048
  puts entry `(b, p, d)` at row `b`, column `2048 p + d` (the same row-major position). The norm along the last axis,
  kept as a unit axis, is at `(b, p, ·)` the root of zero plus the sum of that part's squares: the part's length. The
  quotient divides every entry by its part's length, and the sum over the first axis from zero adds the 8192 rows.
  So entry `(p, d)` of the reference's sum is the specification's `colSum`.
-/
import proofs.«168830_j86526411145660_1_alg».proof.Proof.RefRun
import proofs.«168830_j86526411145660_1_alg».proof.Proof.PartNormSpec
import Idealize.ShloMosaic.Lib.Pipeline.Value
import Idealize.ShloMosaic.Lib.ValueIdx
import Idealize.ShloMosaic.PureOps.Ideal.Laws

noncomputable section

open scoped BigOperators

namespace Cert.ReferenceIdeal.RefRead

open Cert.ReferenceIdeal Cert.ReferenceIdeal.Gen Idealize.ShloMosaic Idealize.ShloMosaic.ValueIdx Idealize.ShloMosaic.Pipeline
open Cert.ReferenceIdeal.RefValue (parts lengths normalisedSum)
open Cert.PartNorm (partCol partLen unitEntry colSum)

theorem sumsRows : S8192x4x2048.Reduces [0] S4x2048 := by decide
theorem sumsLanes : S8192x4x2048.Reduces [2] S8192x4 := by decide

/-- The host's zero, read at the one index of a rank-zero array. -/
theorem zero_apply (j : S_.Idx) : constant (F := Ideal) S_ .f32 0x00000000#32 j = (0 : EReal) := Ideal.ofBits_zero_f32

/-- The host's root and quotient are taken entry by entry. -/
theorem hostSqrt_apply {s : Shape} {φ : FTy} (v : FVec Ideal s φ) (i : s.Idx) : Host.sqrt v i = Ideal.sqrt (v i) := rfl
theorem hostDivf_apply {s : Shape} {φ : FTy} (a b : FVec Ideal s φ) (i : s.Idx) : Host.divf a b i = Ideal.div (a i) (b i) := rfl

/-- Entry `(b, p, d)` of the reshaped matrix is entry `(b, 2048 p + d)` of the matrix. -/
theorem parts_apply (x : FVec Ideal S8192x8192 .f32) (b : Fin 8192) (p : Fin 4) (d : Fin 2048) :
    parts x (ix3 b p d) = x (ix2 b (partCol p d)) := by
  unfold parts
  refine shapeCast_apply x _ (ix3 b p d) (ix2 b (partCol p d)) ?_
  rw [Shape.rowMajor_val_two, Shape.rowMajor_val_three]
  show b.val * 8192 + (2048 * p.val + d.val) = (b.val * 4 + p.val) * 2048 + d.val
  omega

/-- The kept-axis norm at `(b, p, ·)` is the length of part `p` of row `b`. -/
theorem lengths_apply (x : FVec Ideal S8192x8192 .f32) (b : Fin 8192) (p : Fin 4) (u : Fin 1) :
    lengths (F := Ideal) x (ix3 b p u) = partLen x b p := by
  unfold lengths partLen
  refine (hostSqrt_apply _ (ix3 b p u)).trans ?_
  refine congrArg Ideal.sqrt ?_
  refine (broadcastInDim_apply _ _ _ (ix3 b p u) (ix2 b p) fun a => ?_).trans ?_
  · match a with
    | ⟨0, _⟩ => rfl
    | ⟨1, _⟩ => rfl
  show Ideal.hostReduceAdd _ _ _ (ix2 b p) = _
  refine (Ideal.hostReduceAdd_single reducesTo_S8192x4x2048_S8192x4_d2 sumsLanes _ _ (ix2 b p)).trans ?_
  rw [zero_apply, zero_add]
  refine Finset.sum_congr rfl fun (k : Fin 2048) _ => ?_
  have hl : sumsLanes.lift (ix2 b p) k = ix3 b p k := funext fun a => by
    match a with
    | ⟨0, _⟩ => exact Fin.ext rfl
    | ⟨1, _⟩ => exact Fin.ext rfl
    | ⟨2, _⟩ => exact Fin.ext rfl
  rw [hl]
  exact congrArg₂ (· * ·) (parts_apply x b p k) (parts_apply x b p k)

/-- Entry `(p, d)` of the reference's sum: every row's entry of part `p` at offset `d` over that part's length, added up. -/
theorem normalisedSum_apply (x : FVec Ideal S8192x8192 .f32) (p : Fin 4) (d : Fin 2048) :
    normalisedSum (F := Ideal) x (ix2 p d) = colSum x p d := by
  unfold normalisedSum colSum
  show Ideal.hostReduceAdd _ _ _ (ix2 p d) = _
  refine (Ideal.hostReduceAdd_single reducesTo_S8192x4x2048_S4x2048_d0 sumsRows _ _ (ix2 p d)).trans ?_
  rw [zero_apply, zero_add]
  refine Finset.sum_congr rfl fun (b : Fin 8192) _ => ?_
  have hl : sumsRows.lift (ix2 p d) b = ix3 b p d := funext fun a => by
    match a with
    | ⟨0, _⟩ => exact Fin.ext rfl
    | ⟨1, _⟩ => exact Fin.ext rfl
    | ⟨2, _⟩ => exact Fin.ext rfl
  rw [hl]
  refine (hostDivf_apply _ _ (ix3 b p d)).trans ?_
  unfold unitEntry
  refine congrArg₂ Ideal.div (parts_apply x b p d) ?_
  refine (broadcastInDim_apply _ _ _ (ix3 b p d) (ix3 b p (0 : Fin 1)) fun a => ?_).trans (lengths_apply x b p 0)
  match a with
  | ⟨0, _⟩ => rfl
  | ⟨1, _⟩ => rfl
  | ⟨2, _⟩ => rfl

end Cert.ReferenceIdeal.RefRead

end
-- ==== Proof.lean ====
/-
  The certificate that a pipelined kernel and a plain array program compute the same loss over the extended reals.

  Both take a matrix `x` of 8192 rows, each row four parts of 2048 entries, and a one-entry scale `g`. Every part of
  every row is divided by its Euclidean length; the normalised parts are summed down the rows, `s (p, d) = Σ_b
  x[b, 2048 p + d] / sqrt (Σ_k x[b, 2048 p + k]²)`; and the result is `closing s g`: with `μ = s / 8192` and `C = μ μᵀ`,
  `((Σ C − 3 · tr C) + 8) / 2 · g`.

  The kernel walks the rows in 32 blocks of 256. At each grid point it forms the block's contribution to `s` and adds
  it to an output buffer that it zeroes at the first point and writes back after the last; the lines after the kernel
  apply `closing`. The reference reshapes `x` to 8192 × 4 × 2048, divides by the norm along the last axis, sums over the
  first axis, and applies the same `closing`.

  The two differ only in how the sum over the 8192 rows is grouped (32 partial sums of 256 accumulated in order onto a
  zero, against one sum from a zero), and addition of extended reals is commutative and associative with no side
  condition. So the two sums agree entry by entry at every input (a zero length or an infinite entry gives the same
  extended real on both sides, since both sides apply the same division and the same root to the same values), and
  the precondition is not used. The kernel's idealization rewrote no operation, so that claim is trivial; the frame
  claims are the generated frames of the two kernel programs and the reference's run with its result dropped.
-/
import proofs.«168830_j86526411145660_1_alg».proof.Defs
import proofs.«168830_j86526411145660_1_alg».proof.Proof.Gen.Kernel
import proofs.«168830_j86526411145660_1_alg».proof.Proof.Gen.Kernel.Frame
import proofs.«168830_j86526411145660_1_alg».proof.Proof.Gen.KernelIdeal
import proofs.«168830_j86526411145660_1_alg».proof.Proof.Gen.KernelIdeal.Frame
import proofs.«168830_j86526411145660_1_alg».proof.Proof.Gen.ReferenceIdeal
import proofs.«168830_j86526411145660_1_alg».proof.Proof.Gen.Pre_finite_inputs
import proofs.«168830_j86526411145660_1_alg».proof.Proof.KernelRun
import proofs.«168830_j86526411145660_1_alg».proof.Proof.RefRun
import proofs.«168830_j86526411145660_1_alg».proof.Proof.RefRead

noncomputable section

namespace Cert.Proof

open Idealize.ShloMosaic Idealize.ShloMosaic.TcCoe Idealize.SL.Sem Idealize.ShloMosaic.ValueIdx

/-- The kernel's program as printed: it runs and keeps its arguments. -/
theorem frame_kernel : Cert.frame_Kernel := fun m ρ _ => Cert.Kernel.Gen.frame m ρ

/-- The same of its idealization. -/
theorem frame_kernelIdeal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.RefValue.run (F := Ideal) m ρ)

/-- No operation was rewritten for the exact reading. -/
theorem preserves : Cert.preserves_Kernel_KernelIdeal := trivial

/-- The reference's sum over the rows and the kernel's accumulated one are the same 4 × 2048 array. -/
theorem sums_agree (x : FVec Ideal Cert.ReferenceIdeal.S8192x8192 .f32) :
    Cert.ReferenceIdeal.RefValue.normalisedSum (F := Ideal) x = Cert.KernelIdeal.KernelRun.summed x :=
  funext fun j => by
    obtain ⟨p, d, rfl⟩ : ∃ (p : Fin 4) (d : Fin 2048), j = ix2 p d := ⟨j 0, j 1, eq_ix2 j⟩
    exact Cert.ReferenceIdeal.RefRead.normalisedSum_apply x p d

/-- From memories that agree on the two arguments both programs end with the closing arithmetic of the same sums and
    the same scale. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]
  exact congrArg (fun s => Cert.PartNorm.closing s _) (sums_agree _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
